-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x1x64 : Shape := ⟨3, ![50000, 1, 64]⟩
abbrev S1000000 : Shape := ⟨1, ![1000000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x1x64 : S_.BroadcastsInDim S50000x1x64 (![] : Fin 0 → Fin S50000x1x64.rank)
  reducesTo_S50000x1x64_S_d0_1_2 : S50000x1x64.ReducesTo [0, 1, 2] S_

variable [Facts]

def fn_part1 {F : FTy → Type} [FloatOps F] (main_v13 : IVec S_ 1) (main_v16 : IVec S50000x1x64 1) : IVec S_ 1 :=
  let main_c_5 : IVec S_ 1 := constantI S_ 1 1#1
  let main_v17 : IVec S_ 1 := (fun x v => Host.reduce IntOp.andi x v reducesTo_S50000x1x64_S_d0_1_2 h_S_) main_v16 main_c_5
  let main_v18 : IVec S_ 1 := andi main_v13 main_v17
  main_v18

def fn {F : FTy → Type} [FloatOps F] (main_arg0 : FVec F S50000x64 .f32) (main_arg1 : FVec F S50000x64 .f32) (main_arg2 : FVec F S50000x64 .f32) (main_arg3 : FVec F S50000x1x64 .f32) (main_arg4 : IVec S1000000 32) (main_arg5 : IVec S1000000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S50000x1x64 .f32 := Host.absf main_arg3
  let main_cst_4 : FVec F S_ .f32 := constant S_ .f32 0x7F800000#32
  let main_v15 : FVec F S50000x1x64 .f32 := broadcastInDim S50000x1x64 ![] bcast_S_S50000x1x64 main_cst_4
  let main_v16 : IVec S50000x1x64 1 := cmpf .olt main_v14 main_v15
  fn_part1 (F := F) main_v13 main_v16
-- ==== Kernel.lean ====
abbrev S50000x64 : Shape := ⟨2, ![50000, 64]⟩
abbrev S50000x1x64 : Shape := ⟨3, ![50000, 1, 64]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S8000x64 : Shape := ⟨2, ![8000, 64]⟩
abbrev S8000 : Shape := ⟨1, ![8000]⟩
abbrev S8000x1 : Shape := ⟨2, ![8000, 1]⟩
abbrev S1000000x1x64 : Shape := ⟨3, ![1000000, 1, 64]⟩

abbrev nBuf : Space → Nat
  | .hbm => 54
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S50000x1x64, .f32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x64, .f32⟩
  | .hbm, ⟨42, _⟩ => ⟨S50000x64, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x64, .f32⟩
  | .hbm, ⟨52, _⟩ => ⟨S1000000x64, .f32⟩
  | .hbm, ⟨53, _⟩ => ⟨S1000000x1x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S8000x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S50000x1x64_S50000x64 : S50000x1x64.ShapeCasts S50000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  broadcasts_S8000x1_S8000x64 : S8000x1.Broadcasts S8000x64
  bcast_S1000000x64_S1000000x1x64_0_2 : S1000000x64.BroadcastsInDim S1000000x1x64 (![0, 2] : Fin 2 → Fin S1000000x1x64.rank)
  gather_S50000x64_S1000000x1_S1000000x64_1_0_n_n_0_1_164_wf : GatherDims.WF S50000x64 S1000000x1 S1000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .f32 = 32 ∨ (Rect.block (s := S1000000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1000000x64.size a
  hwx0_2 : ∀ i : grid0.Coords, EltTy.bits .f32 = 32 ∨ (Rect.block (s := S1000000x64) S8000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S1000000x64.size a
  hwx0_3 : ∀ i : grid0.Coords, EltTy.bits .f32 = 32 ∨ (Rect.block (s := S1000000x64) S8000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S1000000x64.size a
  hwx0_4 : ∀ i : grid0.Coords, EltTy.bits .f32 = 32 ∨ (Rect.block (s := S1000000x64) S8000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S1000000x64.size a
  hwx0_5 : ∀ i : grid0.Coords, EltTy.bits .f32 = 32 ∨ (Rect.block (s := S1000000x64) S8000x64.size (cc0_transform_5 i) (hinb0_5 i)).WholeWords (EltTy.packing .f32)

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf

abbrev win0_0 : Pipeline.Window sig grid0 :=
  Pipeline.Window.ofSpec (Memref.whole main_v6) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S8000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S8000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x1x64 : Shape := ⟨3, ![50000, 1, 64]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1000000x1x1 : Shape := ⟨3, ![1000000, 1, 1]⟩
abbrev S1000000x1x64 : Shape := ⟨3, ![1000000, 1, 64]⟩

abbrev nBuf : Space → Nat
  | .hbm => 91
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S50000x1x64, .f32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S1000000x64, .f32⟩
  | .hbm, ⟨25, _⟩ => ⟨S1000000x64, .f32⟩
  | .hbm, ⟨26, _⟩ => ⟨S_, .f32⟩
  | .hbm, ⟨27, _⟩ => ⟨S1000000, .f32⟩
  | .hbm, ⟨28, _⟩ => ⟨S_, .f32⟩
  | .hbm, ⟨29, _⟩ => ⟨S1000000, .f32⟩
  | .hbm, ⟨30, _⟩ => ⟨S1000000, .f32⟩
  | .hbm, ⟨31, _⟩ => ⟨S1000000, .f32⟩
  | .hbm, ⟨32, _⟩ => ⟨S1000000, .f32⟩
  | .hbm, ⟨33, _⟩ => ⟨S_, .f32⟩
  | .hbm, ⟨34, _⟩ => ⟨S1000000, .f32⟩
  | .hbm, ⟨35, _⟩ => ⟨S1000000, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1000000, .f32⟩
  | .hbm, ⟨40, _⟩ => ⟨S1000000, .f32⟩
  | .hbm, ⟨41, _⟩ => ⟨S_, .f32⟩
  | .hbm, ⟨42, _⟩ => ⟨S1000000, .f32⟩
  | .hbm, ⟨43, _⟩ => ⟨S1000000, .f32⟩
  | .hbm, ⟨44, _⟩ => ⟨S1000000, .f32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000x64, .f32⟩
  | .hbm, ⟨54, _⟩ => ⟨S_, .i32⟩
  | .hbm, ⟨55, _⟩ => ⟨S1000000, .i32⟩
  | .hbm, ⟨56, _⟩ => ⟨S1000000, .i1⟩
  | .hbm, ⟨57, _⟩ => ⟨S_, .i32⟩
  | .hbm, ⟨58, _⟩ => ⟨S1000000, .i32⟩
  | .hbm, ⟨59, _⟩ => ⟨S1000000, .i32⟩
  | .hbm, ⟨60, _⟩ => ⟨S1000000, .i32⟩
  | .hbm, ⟨61, _⟩ => ⟨S1000000x1, .i32⟩
  | .hbm, ⟨62, _⟩ => ⟨S1000000x64, .f32⟩
  | .hbm, ⟨63, _⟩ => ⟨S1000000x64, .f32⟩
  | .hbm, ⟨64, _⟩ => ⟨S_, .f32⟩
  | .hbm, ⟨65, _⟩ => ⟨S1000000, .f32⟩
  | .hbm, ⟨66, _⟩ => ⟨S_, .f32⟩
  | .hbm, ⟨67, _⟩ => ⟨S1000000, .f32⟩
  | .hbm, ⟨68, _⟩ => ⟨S1000000, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S1000000, .f32⟩
  | .hbm, ⟨73, _⟩ => ⟨S1000000, .f32⟩
  | .hbm, ⟨74, _⟩ => ⟨S_, .f32⟩
  | .hbm, ⟨75, _⟩ => ⟨S1000000, .f32⟩
  | .hbm, ⟨76, _⟩ => ⟨S1000000, .f32⟩
  | .hbm, ⟨77, _⟩ => ⟨S1000000, .f32⟩
  | .hbm, ⟨78, _⟩ => ⟨S1000000, .f32⟩
  | .hbm, ⟨79, _⟩ => ⟨S1000000x1x1, .f32⟩
  | .hbm, ⟨80, _⟩ => ⟨S_, .i32⟩
  | .hbm, ⟨81, _⟩ => ⟨S1000000, .i32⟩
  | .hbm, ⟨82, _⟩ => ⟨S1000000, .i1⟩
  | .hbm, ⟨83, _⟩ => ⟨S_, .i32⟩
  | .hbm, ⟨84, _⟩ => ⟨S1000000, .i32⟩
  | .hbm, ⟨85, _⟩ => ⟨S1000000, .i32⟩
  | .hbm, ⟨86, _⟩ => ⟨S1000000, .i32⟩
  | .hbm, ⟨87, _⟩ => ⟨S1000000x1, .i32⟩
  | .hbm, ⟨88, _⟩ => ⟨S1000000x1x64, .f32⟩
  | .hbm, ⟨89, _⟩ => ⟨S1000000x1x64, .f32⟩
  | .hbm, ⟨90, _⟩ => ⟨S1000000x1x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_cst_6 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_c_10 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_cst_12 : Ref sig .tc := ⟨.hbm, 66, rfl⟩
abbrev main_v41 : Ref sig .tc := ⟨.hbm, 67, rfl⟩
abbrev main_v42 : Ref sig .tc := ⟨.hbm, 68, rfl⟩
abbrev main_cst_13 : Ref sig .tc := ⟨.hbm, 69, rfl⟩
abbrev main_cst_14 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_15 : Ref sig .tc := ⟨.hbm, 80, rfl⟩
abbrev main_v47 : Ref sig .tc := ⟨.hbm, 81, rfl⟩
abbrev main_v48 : Ref sig .tc := ⟨.hbm, 82, rfl⟩
abbrev main_c_16 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x64_S1000000_d1 : S1000000x64.ReducesTo [1] S1000000
  h_S_ : 0 < S_.numel
  bcast_S1000000_S1000000x1x1_0 : S1000000.BroadcastsInDim S1000000x1x1 (![0] : Fin 1 → Fin S1000000x1x1.rank)
  bcast_S1000000x1x1_S1000000x1x64_0_1_2 : S1000000x1x1.BroadcastsInDim S1000000x1x64 (![0, 1, 2] : Fin 3 → Fin S1000000x1x64.rank)
  gather_S50000x64_S1000000x1_S1000000x64_1_0_n_n_0_1_164_wf : GatherDims.WF S50000x64 S1000000x1 S1000000x64 [1] [0] [] [0] [] 1 ![1, 64]
  gather_S50000x1x64_S1000000x1_S1000000x1x64_12_0_n_n_0_1_1164_wf : GatherDims.WF S50000x1x64 S1000000x1 S1000000x1x64 [1, 2] [0] [] [0] [] 1 ![1, 1, 64]

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def gather_S50000x1x64_S1000000x1_S1000000x1x64_12_0_n_n_0_1_1164 : GatherDims S50000x1x64 S1000000x1 S1000000x1x64 where
  offsetDims := [1, 2]
  collapsedSliceDims := [0]
  operandBatchingDims := []
  startIndicesBatchingDims := []
  startIndexMap := [0]
  indexVectorDim := 1
  sliceSizes := ![1, 1, 64]
  wf := gather_S50000x1x64_S1000000x1_S1000000x1x64_12_0_n_n_0_1_1164_wf

class Facts : Prop extends Facts₀ where

variable [Facts]
-- ==== Proof.EdgeWeight.lean ====
/-
  Relative-position message passing over 1000000 edges of a graph with 50000 nodes, as ONE function of the six
  arguments, on the extended reals. For edge `e` with endpoints s = src[e], d = dst[e] (a negative index counted
  from the end, then clamped into the table — what indexing a table with an integer array means), and lane `j`:

    message[e, 0, j] = weight(G[s], G[d], K[s], Q[d]) · V[s, 0, j]
    weight(gs, gd, ks, qd) = exp (clip (⟨ks, qd⟩ / 8)) · exp (clip (-√(‖gs - gd‖² + ε) / 8)),   clip x = min 5 (max (-5) x),

  with ε the single-precision word nearest 10⁻⁶ and 1/8, ±5 exact binary values. Both programs compute exactly
  this, operation by operation, so nothing here needs the entries to be finite: the one algebraic step is that
  `0 - x` and `-x` agree on every extended real.
  Also here, the layout facts the two readings share: a vector read as an [a, 1] column and a column spread over
  b columns; a row-gather of a [50000, 64] table, and of a [50000, 1, 64] table, read at one entry; the
  [50000, 1, 64] table flattened to [50000, 64].
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.EdgeMessage

open Idealize.ShloMosaic Idealize.ShloMosaic.ValueIdx

/-! ## The weight of an edge -/

/-- Scale by 1/8, clip into [-5, 5], exponentiate. -/
def gate (x : EReal) : EReal :=
  Ideal.exp (min (Ideal.ofBits .f32 0x40A00000#32) (max (Ideal.ofBits .f32 0xC0A00000#32) (x * Ideal.ofBits .f32 0x3E000000#32)))

/-- The inner product of the key row and the query row. -/
def score (ks qd : Fin 64 → EReal) : EReal := ∑ k : Fin 64, ks k * qd k

/-- The squared distance between the two position rows. -/
def sqDist (gs gd : Fin 64 → EReal) : EReal := ∑ k : Fin 64, (gs k - gd k) * (gs k - gd k)

/-- The edge's weight: the gated score times the gated negative distance. -/
def weight (gs gd ks qd : Fin 64 → EReal) : EReal :=
  gate (score ks qd) * gate (-(Ideal.sqrt (sqDist gs gd + Ideal.ofBits .f32 0x358637BD#32)))

/-- Subtracting from zero is negation, at the infinities too. -/
theorem zero_sub_eq_neg (x : EReal) : 0 - x = -x := by rw [sub_eq_add_neg, zero_add]

/-- Entry (e, j) of the result from the five per-edge arrays (each [1000000, 64]: the gathered rows): the weight of
    edge `e` times the gathered value row's lane `j`. -/
def edgeOut (gs gd ks qd vs : (⟨2, ![1000000, 64]⟩ : Shape).Idx → EReal) (e : Fin 1000000) (j : Fin 64) : EReal :=
  weight (fun k => gs (ix2 e k)) (fun k => gd (ix2 e k)) (fun k => ks (ix2 e k)) (fun k => qd (ix2 e k)) * vs (ix2 e j)

variable {α : Type}

/-! ## A column vector -/

/-- A length-`a` vector read as an [a, 1] column: row `p` holds entry `p`. -/
theorem column_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [a, 1] column spread over `b` columns: entry (p, q) is the column's row `p`. -/
theorem column_spread_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## Gathering rows of a table -/

/-- The table row a start index names: the index read as a signed integer and clamped into the table's 50000 rows. -/
def rowOf (w : BitVec 32) : Fin 50000 := ⟨min w.toInt.toNat 49999, by omega⟩

/-- Taking whole rows of a [50000, 64] table at a column of 1000000 start indices. -/
abbrev takeRows : GatherDims ⟨2, ![50000, 64]⟩ ⟨2, ![1000000, 1]⟩ ⟨2, ![1000000, 64]⟩ where
  offsetDims := [1]
  collapsedSliceDims := [0]
  operandBatchingDims := []
  startIndicesBatchingDims := []
  startIndexMap := [0]
  indexVectorDim := 1
  sliceSizes := ![1, 64]

/-- Entry (e, j) of the gathered rows is the table at (the row start index `e` names, j). -/
theorem takeRows_apply (x : (⟨2, ![50000, 64]⟩ : Shape).Idx → α) (idx : IVec ⟨2, ![1000000, 1]⟩ 32)
    (e : Fin 1000000) (j : Fin 64) :
    Host.gather takeRows x idx (ix2 e j) = x (ix2 (rowOf (idx (ix2 e (0 : Fin 1)))) j) := by
  unfold Host.gather
  congr 1
  funext a
  apply Fin.ext
  match a with
  | ⟨0, _⟩ =>
    have hs : takeRows.siIdx (ix2 e j) ⟨0, by decide⟩ = ix2 e (0 : Fin 1) := by
      funext b
      match b with
      | ⟨0, _⟩ => rfl
      | ⟨1, _⟩ => rfl
    exact congrArg (fun z => min (idx z).toInt.toNat 49999) hs
  | ⟨1, _⟩ =>
    show takeRows.start (ix2 e j) idx 1 + takeRows.batchCoord (ix2 e j) 1 + takeRows.offCoord (ix2 e j) 1 = j.val
    rw [GatherDims.batchCoord_eq_zero _ _ _ (by decide), Nat.add_zero]
    unfold GatherDims.start GatherDims.offCoord
    rw [dif_neg (by decide), dif_pos (by decide), Nat.zero_add]
    rfl

/-- Taking whole [1, 64] slabs of a [50000, 1, 64] table at a column of 1000000 start indices. -/
abbrev takeSlabs : GatherDims ⟨3, ![50000, 1, 64]⟩ ⟨2, ![1000000, 1]⟩ ⟨3, ![1000000, 1, 64]⟩ where
  offsetDims := [1, 2]
  collapsedSliceDims := [0]
  operandBatchingDims := []
  startIndicesBatchingDims := []
  startIndexMap := [0]
  indexVectorDim := 1
  sliceSizes := ![1, 1, 64]

/-- Entry (e, u, j) of the gathered slabs is the table at (the row start index `e` names, 0, j). -/
theorem takeSlabs_apply (x : (⟨3, ![50000, 1, 64]⟩ : Shape).Idx → α) (idx : IVec ⟨2, ![1000000, 1]⟩ 32)
    (e : Fin 1000000) (u : Fin 1) (j : Fin 64) :
    Host.gather takeSlabs x idx (ix3 e u j) = x (ix3 (rowOf (idx (ix2 e (0 : Fin 1)))) (0 : Fin 1) j) := by
  unfold Host.gather
  congr 1
  funext a
  apply Fin.ext
  match a with
  | ⟨0, _⟩ =>
    have hs : takeSlabs.siIdx (ix3 e u j) ⟨0, by decide⟩ = ix2 e (0 : Fin 1) := by
      funext b
      match b with
      | ⟨0, _⟩ => rfl
      | ⟨1, _⟩ => rfl
    exact congrArg (fun z => min (idx z).toInt.toNat 49999) hs
  | ⟨1, _⟩ =>
    show takeSlabs.start (ix3 e u j) idx 1 + takeSlabs.batchCoord (ix3 e u j) 1 + takeSlabs.offCoord (ix3 e u j) 1 = (0 : Fin 1).val
    rw [GatherDims.batchCoord_eq_zero _ _ _ (by decide), Nat.add_zero]
    unfold GatherDims.start GatherDims.offCoord
    rw [dif_neg (by decide), dif_pos (by decide), Nat.zero_add]
    show u.val = 0
    omega
  | ⟨2, _⟩ =>
    show takeSlabs.start (ix3 e u j) idx 2 + takeSlabs.batchCoord (ix3 e u j) 2 + takeSlabs.offCoord (ix3 e u j) 2 = j.val
    rw [GatherDims.batchCoord_eq_zero _ _ _ (by decide), Nat.add_zero]
    unfold GatherDims.start GatherDims.offCoord
    rw [dif_neg (by decide), dif_pos (by decide), Nat.zero_add]
    rfl

/-- The [50000, 1, 64] table flattened to [50000, 64]: entry (r, j) is entry (r, 0, j). -/
theorem flatten_apply (v : (⟨3, ![50000, 1, 64]⟩ : Shape).Idx → α)
    (h : (⟨3, ![50000, 1, 64]⟩ : Shape).ShapeCasts ⟨2, ![50000, 64]⟩) (r : Fin 50000) (j : Fin 64) :
    shapeCast ⟨2, ![50000, 64]⟩ v h (ix2 r j) = v (ix3 r (0 : Fin 1) j) :=
  shapeCast_apply v h _ _ (by
    rw [Shape.rowMajor_val_three, Shape.rowMajor_val_two]
    show (r.val * 1 + 0) * 64 + j.val = r.val * 64 + j.val
    omega)

/-- So the rows gathered from the flattened table and the slabs gathered from the table itself hold the same entries. -/
theorem takeRows_flatten (v : (⟨3, ![50000, 1, 64]⟩ : Shape).Idx → α)
    (h : (⟨3, ![50000, 1, 64]⟩ : Shape).ShapeCasts ⟨2, ![50000, 64]⟩) (idx : IVec ⟨2, ![1000000, 1]⟩ 32)
    (e : Fin 1000000) (u : Fin 1) (j : Fin 64) :
    Host.gather takeSlabs v idx (ix3 e u j) = Host.gather takeRows (shapeCast ⟨2, ![50000, 64]⟩ v h) idx (ix2 e j) := by
  rw [takeSlabs_apply, takeRows_apply, flatten_apply]

/-! ## The start indices, and the whole result -/

/-- An index array as the column of start indices a row-gather reads: a negative index has 50000 added (counting
    from the table's end), and the array is laid out as a [1000000, 1] column. -/
def startCol (idx : IVec ⟨1, ![1000000]⟩ 32) : IVec ⟨2, ![1000000, 1]⟩ 32 :=
  broadcastInDim ⟨2, ![1000000, 1]⟩ ![0] (by decide)
    (select (cmpi .slt idx (broadcastInDim ⟨1, ![1000000]⟩ ![] (by decide) (constantI ⟨0, ![]⟩ 32 0#32)))
      (addi idx (broadcastInDim ⟨1, ![1000000]⟩ ![] (by decide) (constantI ⟨0, ![]⟩ 32 50000#32))) idx)

/-- THE RESULT as one function of the six arguments: entry (e, 0, j) is the weight of edge `e`, from the position rows
    of its two endpoints and the key row of its source and the query row of its destination, times lane `j` of its
    source's value row. -/
def message (g k q : (⟨2, ![50000, 64]⟩ : Shape).Idx → EReal) (v : (⟨3, ![50000, 1, 64]⟩ : Shape).Idx → EReal)
    (src dst : IVec ⟨1, ![1000000]⟩ 32) : (⟨3, ![1000000, 1, 64]⟩ : Shape).Idx → EReal := fun i =>
  edgeOut (Host.gather takeRows g (startCol src)) (Host.gather takeRows g (startCol dst))
    (Host.gather takeRows k (startCol src)) (Host.gather takeRows q (startCol dst))
    (Host.gather takeRows (shapeCast ⟨2, ![50000, 64]⟩ v (by decide)) (startCol src)) (i 0) (i 2)

end Cert.EdgeMessage

end
-- ==== Proof.Payload.lean ====
/-
  What the kernel body stores, read at one entry. The body loads five [8000, 64] blocks — the source and
  destination position rows, the key rows, the query rows and the value rows of 8000 consecutive edges — and
  stores one [8000, 64] block: at (p, q) the weight of edge `p` (`Cert.EdgeMessage.weight` of row `p` of the
  first four blocks) times the value block's entry (p, q). The two row sums are lane reductions kept as columns
  and spread back over the 64 lanes; the negation is written `0 - √…`.
-/
import proofs.«110889_j73418170958215_1_alg».proof.Proof.Gen.KernelIdeal.Skeleton
import proofs.«110889_j73418170958215_1_alg».proof.Proof.EdgeWeight

noncomputable section

open scoped BigOperators

namespace Cert.KernelIdeal.Payload

open Idealize.ShloMosaic Idealize.ShloMosaic.ValueIdx Cert.KernelIdeal Cert.KernelIdeal.Gen Cert.EdgeMessage

/-- A lane sum of an [8000, 64] block, at row `p`, is the sum of that row's 64 entries. -/
theorem rowSum (src : FVec Ideal S8000x64 .f32) (hφ : FKind.Formats .f32)
    (hacc : (0x00000000#32 : BitVec 32) = 0x00000000#32) (p : Fin 8000) :
    multiReduction .add [1] S8000 src 0x00000000#32 reduces_S8000x64_S8000 hφ hacc (ix1 p)
      = ∑ k : Fin 64, src (ix2 p k) := by
  refine (Ideal.multiReduction_add_single src _ reduces_S8000x64_S8000 hφ hacc (ix1 p)).trans ?_
  refine Finset.sum_congr rfl fun k _ => ?_
  exact congrArg src (funext fun a => Fin.ext (by match a with | ⟨0, _⟩ => rfl | ⟨1, _⟩ => rfl))

/-- An exponential of a vector, at an index, is the exponential of the entry. -/
theorem exp_apply {s : Shape} {φ : FTy} (x : FVec Ideal s φ) (i : s.Idx) : Idealize.ShloMosaic.exp x i = Ideal.exp (x i) := rfl
/-- A square root of a vector, at an index, is the square root of the entry. -/
theorem sqrt_apply {s : Shape} {φ : FTy} (x : FVec Ideal s φ) (i : s.Idx) : Idealize.ShloMosaic.sqrt x i = Ideal.sqrt (x i) := rfl

/-- THE STORED BLOCK AT (p, q): the weight of edge `p` from the four blocks' rows `p`, times the value entry. -/
theorem pay_apply (x0 x1 x2 x3 x4 : Vec Ideal S8000x64 .f32) (p : Fin 8000) (q : Fin 64) :
    k0_pay1 (F := Ideal) x0 x1 x2 x3 x4 (ix2 p q)
      = weight (fun k => x0 (ix2 p k)) (fun k => x1 (ix2 p k)) (fun k => x2 (ix2 p k)) (fun k => x3 (ix2 p k))
          * x4 (ix2 p q) := by
  unfold k0_pay1
  simp only [shapeCast_self]
  rw [mulf_apply, column_spread_apply]
  simp only [mulf_apply, addf_apply, subf_apply, maximumf_apply, minimumf_apply, broadcast_apply, exp_apply, sqrt_apply,
    Ideal.ofBits_def, column_apply, Ideal.ofBits_zero_f32, zero_sub_eq_neg]
  refine congrArg (· * x4 (ix2 p q)) ?_
  unfold weight gate score sqDist
  refine congrArg₂ (· * ·) ?_ ?_
  · refine congrArg (fun s => Ideal.exp (min _ (max _ (s * _)))) ?_
    exact rowSum (mulf x2 x3) _ _ p
  · refine congrArg (fun s => Ideal.exp (min _ (max _ (-Ideal.sqrt (s + _) * _)))) ?_
    exact rowSum (mulf (subf x0 x1) (subf x0 x1)) _ _ p

/-- The same with the blocks' rows named as rows of five [1000000, 64] arrays: if row `p` of each block is row `E` of its
    array, the stored entry (p, q) is `edgeOut` of the arrays at (E, q). -/
theorem block_entry (x0 x1 x2 x3 x4 : Vec Ideal S8000x64 .f32) (a0 a1 a2 a3 a4 : (⟨2, ![1000000, 64]⟩ : Shape).Idx → EReal)
    (E : Fin 1000000) (p : Fin 8000) (q : Fin 64)
    (h0 : ∀ k : Fin 64, x0 (ix2 p k) = a0 (ix2 E k)) (h1 : ∀ k : Fin 64, x1 (ix2 p k) = a1 (ix2 E k))
    (h2 : ∀ k : Fin 64, x2 (ix2 p k) = a2 (ix2 E k)) (h3 : ∀ k : Fin 64, x3 (ix2 p k) = a3 (ix2 E k))
    (h4 : ∀ k : Fin 64, x4 (ix2 p k) = a4 (ix2 E k)) :
    k0_pay1 (F := Ideal) x0 x1 x2 x3 x4 (ix2 p q) = edgeOut a0 a1 a2 a3 a4 E q := by
  rw [pay_apply]
  unfold edgeOut
  simp only [h0, h1, h2, h3, h4]

end Cert.KernelIdeal.Payload

end
-- ==== Proof.KernelValue.lean ====
/-
  The idealized kernel's run, read as a value. The one pallas_call walks 125 grid points; point `t` stages rows
  8000 t … 8000 t + 7999 of five [1000000, 64] arrays — the rows gathered, before the call, for the edges' endpoints — and
  writes back the same rows of the output, each entry the edge's weight times its value lane (`Payload.block_entry`).
  The 125 blocks tile the output, so after the run it holds `edgeOut` of the five arrays everywhere; the line after
  the call only inserts a unit axis. With the five arrays read as the gathers @main computes them by, the program's
  result is `Cert.EdgeMessage.message` of its six arguments.
-/
import proofs.«110889_j73418170958215_1_alg».proof.Proof.Gen.KernelIdeal.Frame
import proofs.«110889_j73418170958215_1_alg».proof.Proof.Payload
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.EdgeMessage

variable (m : (ℓ : Loc nD τ sig) → Buf (Elt Ideal) ℓ) (ρ : Dev nD → PrngReg)

theorem hz : (![0, 0] : Fin 2 → Nat) = fun _ => 0 := funext fun a => by fin_cases a <;> rfl

/-! ## The blocks: point `t` is edges 8000 t … 8000 t + 7999 -/

theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- Row `p` of window 0's block at point `t` is row `8000 t + p` of the array it tiles. -/
theorem blk0_row (c : Dev nD) (t : Fin cfg0.N) (p : Fin 8000) (k : Fin 64) (E : Fin 1000000) (hE : E.val = 8000 * t.val + p.val) :
    (iblk m c 0 t : Vec Ideal S8000x64 .f32) (ix2 p k) = (V m c main_v6 : S1000000x64.Idx → EReal) (ix2 E k) := by
  obtain ⟨h0, h1⟩ := idx_0 t
  unfold iblk
  rw [View.read_apply]
  show V m c main_v6 _ = V m c main_v6 _
  congr 1
  funext a
  apply Fin.ext
  match a with
  | ⟨0, _⟩ => show win0_0.index t 0 * 8000 + 1 * p.val = E.val; rw [h0, hE]; omega
  | ⟨1, _⟩ => show win0_0.index t 1 * 64 + 1 * k.val = k.val; rw [h1]; omega

/-- Row `p` of window 1's block at point `t` is row `8000 t + p` of the array it tiles. -/
theorem blk1_row (c : Dev nD) (t : Fin cfg0.N) (p : Fin 8000) (k : Fin 64) (E : Fin 1000000) (hE : E.val = 8000 * t.val + p.val) :
    (iblk m c 1 t : Vec Ideal S8000x64 .f32) (ix2 p k) = (V m c main_v13 : S1000000x64.Idx → EReal) (ix2 E k) := by
  obtain ⟨h0, h1⟩ := idx_1 t
  unfold iblk
  rw [View.read_apply]
  show V m c main_v13 _ = V m c main_v13 _
  congr 1
  funext a
  apply Fin.ext
  match a with
  | ⟨0, _⟩ => show win0_1.index t 0 * 8000 + 1 * p.val = E.val; rw [h0, hE]; omega
  | ⟨1, _⟩ => show win0_1.index t 1 * 64 + 1 * k.val = k.val; rw [h1]; omega

/-- Row `p` of window 2's block at point `t` is row `8000 t + p` of the array it tiles. -/
theorem blk2_row (c : Dev nD) (t : Fin cfg0.N) (p : Fin 8000) (k : Fin 64) (E : Fin 1000000) (hE : E.val = 8000 * t.val + p.val) :
    (iblk m c 2 t : Vec Ideal S8000x64 .f32) (ix2 p k) = (V m c main_v20 : S1000000x64.Idx → EReal) (ix2 E k) := by
  obtain ⟨h0, h1⟩ := idx_2 t
  unfold iblk
  rw [View.read_apply]
  show V m c main_v20 _ = V m c main_v20 _
  congr 1
  funext a
  apply Fin.ext
  match a with
  | ⟨0, _⟩ => show win0_2.index t 0 * 8000 + 1 * p.val = E.val; rw [h0, hE]; omega
  | ⟨1, _⟩ => show win0_2.index t 1 * 64 + 1 * k.val = k.val; rw [h1]; omega

/-- Row `p` of window 3's block at point `t` is row `8000 t + p` of the array it tiles. -/
theorem blk3_row (c : Dev nD) (t : Fin cfg0.N) (p : Fin 8000) (k : Fin 64) (E : Fin 1000000) (hE : E.val = 8000 * t.val + p.val) :
    (iblk m c 3 t : Vec Ideal S8000x64 .f32) (ix2 p k) = (V m c main_v27 : S1000000x64.Idx → EReal) (ix2 E k) := by
  obtain ⟨h0, h1⟩ := idx_3 t
  unfold iblk
  rw [View.read_apply]
  show V m c main_v27 _ = V m c main_v27 _
  congr 1
  funext a
  apply Fin.ext
  match a with
  | ⟨0, _⟩ => show win0_3.index t 0 * 8000 + 1 * p.val = E.val; rw [h0, hE]; omega
  | ⟨1, _⟩ => show win0_3.index t 1 * 64 + 1 * k.val = k.val; rw [h1]; omega

/-- Row `p` of window 4's block at point `t` is row `8000 t + p` of the array it tiles. -/
theorem blk4_row (c : Dev nD) (t : Fin cfg0.N) (p : Fin 8000) (k : Fin 64) (E : Fin 1000000) (hE : E.val = 8000 * t.val + p.val) :
    (iblk m c 4 t : Vec Ideal S8000x64 .f32) (ix2 p k) = (V m c main_v35 : S1000000x64.Idx → EReal) (ix2 E k) := by
  obtain ⟨h0, h1⟩ := idx_4 t
  unfold iblk
  rw [View.read_apply]
  show V m c main_v35 _ = V m c main_v35 _
  congr 1
  funext a
  apply Fin.ext
  match a with
  | ⟨0, _⟩ => show win0_4.index t 0 * 8000 + 1 * p.val = E.val; rw [h0, hE]; omega
  | ⟨1, _⟩ => show win0_4.index t 1 * 64 + 1 * k.val = k.val; rw [h1]; omega

/-! ## The output array -/

/-- What the output array holds after the run: `edgeOut` of the five arrays the region reads, as it finds them. -/
def regionOut (c : Dev nD) : S1000000x64.Idx → EReal := fun i =>
  edgeOut (V m c main_v6) (V m c main_v13) (V m c main_v20) (V m c main_v27) (V m c main_v35) (i 0) (i 1)

theorem regionOut_apply (c : Dev nD) (i : S1000000x64.Idx) (E : Fin 1000000) (q : Fin 64) (h0 : (i 0).val = E.val)
    (h1 : (i 1).val = q.val) :
    regionOut m c i = edgeOut (V m c main_v6) (V m c main_v13) (V m c main_v20) (V m c main_v27) (V m c main_v35) E q := by
  have hi : i = ix2 E q := funext fun a => Fin.ext (by match a with | ⟨0, _⟩ => exact h0 | ⟨1, _⟩ => exact h1)
  rw [hi]
  rfl

/-- WHAT POINT `t` WRITES BACK is block `t` of `regionOut`. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  unfold out0_5
  rw [View.canon_unit_zero hz]
  simp only [View.ld_unit_zero (S := S8000x64) hz]
  funext y
  obtain ⟨p, q, rfl⟩ : ∃ (p : Fin 8000) (q : Fin 64), y = ix2 p q := ⟨y 0, y 1, eq_ix2 y⟩
  have hN : cfg0.N = 125 := N_0
  have ht : t.val < 125 := by have := t.isLt; omega
  obtain ⟨h50, h51⟩ := idx_5 t
  obtain ⟨E, hE⟩ : ∃ E : Fin 1000000, E.val = 8000 * t.val + p.val := ⟨⟨8000 * t.val + p.val, by omega⟩, rfl⟩
  show k0_pay1 (F := Ideal) (iblk m c 0 t) (iblk m c 1 t) (iblk m c 2 t) (iblk m c 3 t) (iblk m c 4 t) (ix2 p q)
    = regionOut m c (((cfg0.win 5).blk t).view.emb (ix2 p q))
  refine (Payload.block_entry _ _ _ _ _ (V m c main_v6) (V m c main_v13) (V m c main_v20) (V m c main_v27) (V m c main_v35) E p q
    (fun k => blk0_row m c t p k E hE) (fun k => blk1_row m c t p k E hE) (fun k => blk2_row m c t p k E hE)
    (fun k => blk3_row m c t p k E hE) (fun k => blk4_row m c t p k E hE)).trans ?_
  refine (regionOut_apply m c _ E q ?_ ?_).symm
  · show win0_5.index t 0 * 8000 + 1 * p.val = E.val
    rw [h50, hE]; omega
  · show win0_5.index t 1 * 64 + 1 * q.val = q.val
    rw [h51]; omega

/-- An index of the output array is in point `t`'s block iff each coordinate is in the block's range on its axis. -/
theorem mem_blk (t : Fin cfg0.N) (i : S1000000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v36).slice (win0_5.rect t)).set ↔ _
  rw [View.set_slice_whole, Rect.mem_set_unit]
  exact Iff.rfl

/-- Every row of the output lies in the block of the point its edge falls in: row `r` in block `r / 8000`. -/
theorem cover (i : S1000000x64.Idx) : ∃ t : Fin cfg0.N, (cfg0.win 5).flush t = true ∧ i ∈ ((cfg0.win 5).blk t).view.set := by
  have hi0 : (i 0).val < 1000000 := (i 0).isLt
  have hi1 : (i 1).val < 64 := (i 1).isLt
  have hN : cfg0.N = 125 := N_0
  obtain ⟨t, ht⟩ : ∃ t : Fin cfg0.N, t.val = (i 0).val / 8000 := ⟨⟨(i 0).val / 8000, by omega⟩, rfl⟩
  obtain ⟨h50, h51⟩ := idx_5 t
  refine ⟨t, flush0_5 t, ?_⟩
  rw [mem_blk]
  intro a
  match a with
  | ⟨0, _⟩ =>
    show win0_5.index t 0 * 8000 ≤ (i 0).val ∧ (i 0).val < win0_5.index t 0 * 8000 + 8000
    rw [h50, ht]; omega
  | ⟨1, _⟩ =>
    show win0_5.index t 1 * 64 ≤ (i 1).val ∧ (i 1).val < win0_5.index t 1 * 64 + 64
    rw [h51]; omega

/-- THE OUTPUT ARRAY after the run is `regionOut`. -/
theorem final (c : Dev nD) : (dats m 0 c).arrAt 5 cfg0.N = regionOut m c :=
  (dats m 0 c).arrAt_eq_of_cover 5 (regionOut m c) (fun t _ => flushed_eq m c t) (cover)

/-! ## The line after the call, and the arrays before it -/

/-- The program's result: the output array with a unit axis inserted. -/
theorem tail_eq (c : Dev nD) :
    Pipeline.afterTail₀ cfgs (dats m) 0 (V0 m) [hostOps1] c main_v37
      = broadcastInDim S1000000x1x64 ![0, 2] bcast_S1000000x64_S1000000x1x64_0_2 (regionOut m c) := by
  unfold Pipeline.afterTail₀
  show StableHlo.after hostOps1 _ (Proc.devRef .tc main_v37) = _
  after_results
  exact congrArg _ ((Pipeline.withArrays_arr spec0 launch0.win.arr_inj c _ _ 5).trans (final m c))

/-- Each array the region reads is, as the lines before the call leave it, the rows of an argument table gathered at
    the wrapped start indices (the value table flattened first). -/
theorem main_v6_entry (c : Dev nD) :
    (V m c main_v6 : S1000000x64.Idx → EReal) = Host.gather takeRows (m ((c.tc : Thread nD τ).loc main_arg0)) (startCol (m ((c.tc : Thread nD τ).loc main_arg4))) := by
  show StableHlo.after hostOps0 (fun b => m (c, b)) (Proc.devRef .tc main_v6) = _
  after_results
  rfl

theorem main_v13_entry (c : Dev nD) :
    (V m c main_v13 : S1000000x64.Idx → EReal) = Host.gather takeRows (m ((c.tc : Thread nD τ).loc main_arg0)) (startCol (m ((c.tc : Thread nD τ).loc main_arg5))) := by
  show StableHlo.after hostOps0 (fun b => m (c, b)) (Proc.devRef .tc main_v13) = _
  after_results
  rfl

theorem main_v20_entry (c : Dev nD) :
    (V m c main_v20 : S1000000x64.Idx → EReal) = Host.gather takeRows (m ((c.tc : Thread nD τ).loc main_arg1)) (startCol (m ((c.tc : Thread nD τ).loc main_arg4))) := by
  show StableHlo.after hostOps0 (fun b => m (c, b)) (Proc.devRef .tc main_v20) = _
  after_results
  rfl

theorem main_v27_entry (c : Dev nD) :
    (V m c main_v27 : S1000000x64.Idx → EReal) = Host.gather takeRows (m ((c.tc : Thread nD τ).loc main_arg2)) (startCol (m ((c.tc : Thread nD τ).loc main_arg5))) := by
  show StableHlo.after hostOps0 (fun b => m (c, b)) (Proc.devRef .tc main_v27) = _
  after_results
  rfl

theorem main_v35_entry (c : Dev nD) :
    (V m c main_v35 : S1000000x64.Idx → EReal) = Host.gather takeRows (shapeCast ⟨2, ![50000, 64]⟩ (m ((c.tc : Thread nD τ).loc main_arg3) : S50000x1x64.Idx → EReal) shapeCasts_S50000x1x64_S50000x64) (startCol (m ((c.tc : Thread nD τ).loc main_arg4))) := by
  show StableHlo.after hostOps0 (fun b => m (c, b)) (Proc.devRef .tc main_v35) = _
  after_results
  rfl

/-- The program's result is `message` of its six arguments. -/
theorem result_message (c : Dev nD) :
    broadcastInDim S1000000x1x64 ![0, 2] bcast_S1000000x64_S1000000x1x64_0_2 (regionOut m c)
      = message (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  obtain ⟨e, u, j, rfl⟩ : ∃ (e : Fin 1000000) (u : Fin 1) (j : Fin 64), i = ix3 e u j := ⟨i 0, i 1, i 2, eq_ix3 i⟩
  rw [broadcastInDim_apply _ bcast_S1000000x64_S1000000x1x64_0_2 (regionOut m c) (ix3 e u j) (ix2 e j) (fun a => by
    match a with
    | ⟨0, _⟩ => show e.val = if (1000000 : Nat) = 1 then 0 else e.val; rw [if_neg (by decide)]
    | ⟨1, _⟩ => show j.val = if (64 : Nat) = 1 then 0 else j.val; rw [if_neg (by decide)])]
  show edgeOut (V m c main_v6) (V m c main_v13) (V m c main_v20) (V m c main_v27) (V m c main_v35) e j = _
  rw [main_v6_entry, main_v13_entry, main_v20_entry, main_v27_entry, main_v35_entry]
  rfl

/-! ## The run, read -/

/-- Every weakly fair execution of the idealized kernel ends with its result at `message` of the arguments, the
    arguments unchanged. -/
theorem run : θ_run defs (onTc (τ := τ) (main (F := Ideal))) ⟨m, fun _ => 0, ρ⟩ (fun r => ∀ c : Dev nD,
      r.2.mem ((c.tc : Thread nD τ).loc main_v37) = message (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).2 main_v37 (Pipeline.mem_restRefs_of main_v37 (by decide) (by decide))).trans
        ((tail_eq m c).trans (result_message m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Hand

end
-- ==== Proof.RefValue.lean ====
/-
  The idealized reference, read as a value. The host program gathers the endpoint rows, forms per edge the two row sums,
  gates them (`stablehlo.negate` for the distance's sign; `jnp.clip` as a maximum then a minimum), multiplies the two
  gates, and scales the gathered value slab — entry by entry `Cert.EdgeMessage.message` of its six arguments. The
  value table is gathered as [1, 64] slabs of the [50000, 1, 64] table; the same entries as rows of the flattened table.
-/
import proofs.«110889_j73418170958215_1_alg».proof.Proof.Gen.ReferenceIdeal.Read
import proofs.«110889_j73418170958215_1_alg».proof.Proof.EdgeWeight

noncomputable section

open scoped BigOperators

namespace Cert.ReferenceIdeal.RefValue

open Cert.ReferenceIdeal Cert.ReferenceIdeal.Gen Cert.ReferenceIdeal.Read Cert.EdgeMessage
open Idealize.ShloMosaic Idealize.ShloMosaic.ValueIdx

variable (x0 x1 x2 : (⟨S50000x64, .f32⟩ : BufTy).Contents (Elt Ideal)) (x3 : (⟨S50000x1x64, .f32⟩ : BufTy).Contents (Elt Ideal))
  (x4 x5 : (⟨S1000000, .i32⟩ : BufTy).Contents (Elt Ideal))

/-! ## The gathers are the specification's -/

theorem v6_eq : val_main_v6 (F := Ideal) x0 x4 = Host.gather takeRows x0 (startCol x4) := rfl
theorem v13_eq : val_main_v13 (F := Ideal) x0 x5 = Host.gather takeRows x0 (startCol x5) := rfl
theorem v31_eq : val_main_v31 (F := Ideal) x1 x4 = Host.gather takeRows x1 (startCol x4) := rfl
theorem v38_eq : val_main_v38 (F := Ideal) x2 x5 = Host.gather takeRows x2 (startCol x5) := rfl
theorem v53_eq : val_main_v53 (F := Ideal) x3 x4 = Host.gather takeSlabs x3 (startCol x4) := rfl

/-! ## The index maps of the row sums and of the two broadcasts -/

theorem idx16 (e : Fin 1000000) (k : Fin 64) : idx_main_v16 (ix1 e) k = ix2 e k :=
  funext fun a => by match a with | ⟨0, _⟩ => rfl | ⟨1, _⟩ => rfl
theorem idx40 (e : Fin 1000000) (k : Fin 64) : idx_main_v40 (ix1 e) k = ix2 e k :=
  funext fun a => by match a with | ⟨0, _⟩ => rfl | ⟨1, _⟩ => rfl
theorem idx46_54 (e : Fin 1000000) (u : Fin 1) (j : Fin 64) : idx_main_v46 (idx_main_v54 (ix3 e u j)) = ix1 e :=
  funext fun a => by match a with | ⟨0, _⟩ => rfl

/-! ## The weight stage, piece by piece -/

/-- The inner-product stage at edge `e`. -/
theorem v40_row (e : Fin 1000000) :
    val_main_v40 (F := Ideal) x1 x2 x4 x5 (ix1 e)
      = score (fun k => val_main_v31 (F := Ideal) x1 x4 (ix2 e k)) (fun k => val_main_v38 (F := Ideal) x2 x5 (ix2 e k)) := by
  rw [val_main_v40_apply, val_main_cst_11_apply, Ideal.ofBits_def, Ideal.ofBits_zero_f32, zero_add]
  unfold score
  refine Finset.sum_congr rfl fun k _ => ?_
  rw [idx40, val_main_v39_apply, Ideal.mulf_def]

/-- The squared-distance stage at edge `e`. -/
theorem v16_row (e : Fin 1000000) :
    val_main_v16 (F := Ideal) x0 x4 x5 (ix1 e)
      = sqDist (fun k => val_main_v6 (F := Ideal) x0 x4 (ix2 e k)) (fun k => val_main_v13 (F := Ideal) x0 x5 (ix2 e k)) := by
  rw [val_main_v16_apply, val_main_cst_apply, Ideal.ofBits_def, Ideal.ofBits_zero_f32, zero_add]
  unfold sqDist
  refine Finset.sum_congr rfl fun k _ => ?_
  rw [idx16, val_main_v15_apply, val_main_v14_apply, Ideal.mulf_def, Ideal.subf_def]

/-- The gated score at edge `e`: `jnp.clip` is a maximum with -5 then a minimum with 5. -/
theorem v44_apply (e : Fin 1000000) :
    val_main_v44 (F := Ideal) x1 x2 x4 x5 (ix1 e)
      = gate (score (fun k => val_main_v31 (F := Ideal) x1 x4 (ix2 e k)) (fun k => val_main_v38 (F := Ideal) x2 x5 (ix2 e k))) := by
  rw [val_main_v44_apply, val_main_v43_apply, val_main_call1_v4_apply, val_main_call1_v3_apply, val_main_cst_14_apply,
    val_main_call1_v2_apply, val_main_call1_v1_apply, val_main_call1_v0_apply, val_main_cst_13_apply,
    val_main_v42_apply, val_main_v41_apply, val_main_cst_12_apply, v40_row]
  rfl

/-- The gated negative distance at edge `e`. -/
theorem v24_apply (e : Fin 1000000) :
    val_main_v24 (F := Ideal) x0 x4 x5 (ix1 e)
      = gate (-(Ideal.sqrt (sqDist (fun k => val_main_v6 (F := Ideal) x0 x4 (ix2 e k)) (fun k => val_main_v13 (F := Ideal) x0 x5 (ix2 e k))
          + Ideal.ofBits .f32 0x358637BD#32))) := by
  rw [val_main_v24_apply, val_main_v23_apply, val_main_call0_v4_apply, val_main_call0_v3_apply, val_main_cst_6_apply,
    val_main_call0_v2_apply, val_main_call0_v1_apply, val_main_call0_v0_apply, val_main_cst_5_apply,
    val_main_v22_apply, val_main_v21_apply, val_main_cst_4_apply, val_main_v20_apply, val_main_v19_apply,
    val_main_v18_apply, val_main_v17_apply, val_main_cst_3_apply, v16_row]
  rfl

/-- The product of the two gates, at edge `e`, is the weight of the four gathered rows. -/
theorem v45_apply (e : Fin 1000000) :
    val_main_v45 (F := Ideal) x0 x1 x2 x4 x5 (ix1 e)
      = weight (fun k => val_main_v6 (F := Ideal) x0 x4 (ix2 e k)) (fun k => val_main_v13 (F := Ideal) x0 x5 (ix2 e k))
          (fun k => val_main_v31 (F := Ideal) x1 x4 (ix2 e k)) (fun k => val_main_v38 (F := Ideal) x2 x5 (ix2 e k)) := by
  rw [val_main_v45_apply, v44_apply, v24_apply, Ideal.mulf_def]
  unfold weight
  rfl

/-- THE REFERENCE'S RESULT is `message` of its arguments. -/
theorem result_eq : val_main_v55 (F := Ideal) x0 x1 x2 x3 x4 x5 = message x0 x1 x2 x3 x4 x5 := by
  funext i
  obtain ⟨e, u, j, rfl⟩ : ∃ (e : Fin 1000000) (u : Fin 1) (j : Fin 64), i = ix3 e u j := ⟨i 0, i 1, i 2, eq_ix3 i⟩
  rw [val_main_v55_apply, val_main_v54_apply, val_main_v46_apply, idx46_54, v45_apply, Ideal.mulf_def,
    v6_eq, v13_eq, v31_eq, v38_eq, v53_eq, takeRows_flatten x3 (by decide) (startCol x4) e u j]
  unfold message edgeOut
  rfl

end Cert.ReferenceIdeal.RefValue

end
-- ==== Proof.lean ====
/-
  The kernel computes relative-position messages along the 1000000 edges of a graph: for edge `e` from node s = src[e]
  to node d = dst[e] it scales the source's value row by

      exp (clip (⟨K[s], Q[d]⟩ / 8)) · exp (clip (-√(‖G[s] - G[d]‖² + ε) / 8)),   clip x = min 5 (max (-5) x).

  It gathers the five endpoint rows on the host, then one pallas_call over 125 blocks of 8000 edges forms the two row
  sums, gates them and scales the value rows; the reference does the same on the host, edge by edge. On the extended reals
  the two are ONE function of the six arguments, `Cert.EdgeMessage.message` (Proof/EdgeWeight.lean): the same operations
  in the same order, a lane reduction against a host reduce of the same 64 terms, `0 - x` against `-x`, and the value
  table gathered after flattening against gathered as slabs. No step uses that the inputs are finite.
    • Proof/Payload.lean — what the kernel body stores, at one entry.
    • Proof/KernelValue.lean — the blocks tile the output; the idealized kernel's run ends at `message`.
    • Proof/RefValue.lean — the reference's result term is `message`.
  The three frames are the generated ones (the reference's is its generated run with the result dropped); the ideal pass
  rewrote nothing, so the idealization claim is trivial.
-/
import proofs.«110889_j73418170958215_1_alg».proof.Defs
import proofs.«110889_j73418170958215_1_alg».proof.Proof.Gen.Kernel
import proofs.«110889_j73418170958215_1_alg».proof.Proof.Gen.Kernel.Skeleton
import proofs.«110889_j73418170958215_1_alg».proof.Proof.Gen.Kernel.Launch
import proofs.«110889_j73418170958215_1_alg».proof.Proof.Gen.Kernel.Points
import proofs.«110889_j73418170958215_1_alg».proof.Proof.Gen.Kernel.Frame
import proofs.«110889_j73418170958215_1_alg».proof.Proof.Gen.KernelIdeal
import proofs.«110889_j73418170958215_1_alg».proof.Proof.Gen.KernelIdeal.Skeleton
import proofs.«110889_j73418170958215_1_alg».proof.Proof.Gen.KernelIdeal.Launch
import proofs.«110889_j73418170958215_1_alg».proof.Proof.Gen.KernelIdeal.Points
import proofs.«110889_j73418170958215_1_alg».proof.Proof.Gen.KernelIdeal.Frame
import proofs.«110889_j73418170958215_1_alg».proof.Proof.Gen.ReferenceIdeal
import proofs.«110889_j73418170958215_1_alg».proof.Proof.Gen.Pre_finite_inputs
import proofs.«110889_j73418170958215_1_alg».proof.Proof.Gen.ReferenceIdeal.Run
import proofs.«110889_j73418170958215_1_alg».proof.Proof.Gen.ReferenceIdeal.Read
import proofs.«110889_j73418170958215_1_alg».proof.Proof.KernelValue
import proofs.«110889_j73418170958215_1_alg».proof.Proof.RefValue
import Idealize.ShloMosaic.Adequacy
import Idealize.ShloMosaic.Init

noncomputable section

namespace Cert.Proof

open Idealize.ShloMosaic Idealize.SL.Sem Cert.EdgeMessage

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the six arguments both programs end at `message` of them. -/
theorem algebraic : Cert.algebraic_KernelIdeal_ReferenceIdeal := by
  intro m ρ m' ρ' _ hagree
  refine ⟨fun c => message (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.ReferenceIdeal.RefValue.result_eq]
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
